-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x131072x64 : Shape := ⟨3, ![9, 131072, 64]⟩
abbrev S9x64x64 : Shape := ⟨3, ![9, 64, 64]⟩
abbrev S9x64 : Shape := ⟨2, ![9, 64]⟩
abbrev S_ : Shape := ⟨0, ![]⟩

class Facts : Prop where
  bcast_S_S9x131072x64 : S_.BroadcastsInDim S9x131072x64 (![] : Fin 0 → Fin S9x131072x64.rank)
  reducesTo_S9x131072x64_S_d0_1_2 : S9x131072x64.ReducesTo [0, 1, 2] S_
  h_S_ : 0 < S_.numel
  bcast_S_S9x64x64 : S_.BroadcastsInDim S9x64x64 (![] : Fin 0 → Fin S9x64x64.rank)
  reducesTo_S9x64x64_S_d0_1_2 : S9x64x64.ReducesTo [0, 1, 2] S_
  bcast_S_S9x64 : S_.BroadcastsInDim S9x64 (![] : Fin 0 → Fin S9x64.rank)
  reducesTo_S9x64_S_d0_1 : S9x64.ReducesTo [0, 1] S_

variable [Facts]

def fn {F : FTy → Type} [FloatOps F] (main_arg0 : FVec F S9x131072x64 .f32) (main_arg1 : FVec F S9x64x64 .f32) (main_arg2 : FVec F S9x64 .f32) : IVec S_ 1 :=
  let main_v0 : FVec F S9x131072x64 .f32 := Host.absf main_arg0
  let main_cst : FVec F S_ .f32 := constant S_ .f32 0x7F800000#32
  let main_v1 : FVec F S9x131072x64 .f32 := broadcastInDim S9x131072x64 ![] bcast_S_S9x131072x64 main_cst
  let main_v2 : IVec S9x131072x64 1 := cmpf .olt main_v0 main_v1
  let main_c : IVec S_ 1 := constantI S_ 1 1#1
  let main_v3 : IVec S_ 1 := (fun x v => Host.reduce IntOp.andi x v reducesTo_S9x131072x64_S_d0_1_2 h_S_) main_v2 main_c
  let main_v4 : FVec F S9x64x64 .f32 := Host.absf main_arg1
  let main_cst_0 : FVec F S_ .f32 := constant S_ .f32 0x7F800000#32
  let main_v5 : FVec F S9x64x64 .f32 := broadcastInDim S9x64x64 ![] bcast_S_S9x64x64 main_cst_0
  let main_v6 : IVec S9x64x64 1 := cmpf .olt main_v4 main_v5
  let main_c_1 : IVec S_ 1 := constantI S_ 1 1#1
  let main_v7 : IVec S_ 1 := (fun x v => Host.reduce IntOp.andi x v reducesTo_S9x64x64_S_d0_1_2 h_S_) main_v6 main_c_1
  let main_v8 : IVec S_ 1 := andi main_v3 main_v7
  let main_v9 : FVec F S9x64 .f32 := Host.absf main_arg2
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  main_v13
-- ==== Kernel.lean ====
abbrev S9x131072x64 : Shape := ⟨3, ![9, 131072, 64]⟩
abbrev S9x64x64 : Shape := ⟨3, ![9, 64, 64]⟩
abbrev S9x64 : Shape := ⟨2, ![9, 64]⟩
abbrev S9x64x131072 : Shape := ⟨3, ![9, 64, 131072]⟩
abbrev S9x1x64 : Shape := ⟨3, ![9, 1, 64]⟩
abbrev S64x1179648 : Shape := ⟨2, ![64, 1179648]⟩
abbrev S1x64x16384 : Shape := ⟨3, ![1, 64, 16384]⟩
abbrev S1x64x64 : Shape := ⟨3, ![1, 64, 64]⟩
abbrev S1x1x64 : Shape := ⟨3, ![1, 1, 64]⟩
abbrev S64x16384 : Shape := ⟨2, ![64, 16384]⟩
abbrev S64x64 : Shape := ⟨2, ![64, 64]⟩
abbrev S64 : Shape := ⟨1, ![64]⟩
abbrev S64x1 : Shape := ⟨2, ![64, 1]⟩
abbrev S1179648x64 : Shape := ⟨2, ![1179648, 64]⟩

abbrev nBuf : Space → Nat
  | .hbm => 7
  | .vmem => 8
  | .smem => 0
  | _ => 0

abbrev bufTy : (tb : Table) → Fin (tcTables nBuf tb) → BufTy
  | .hbm, ⟨0, _⟩ => ⟨S9x131072x64, .f32⟩
  | .hbm, ⟨1, _⟩ => ⟨S9x64x64, .f32⟩
  | .hbm, ⟨2, _⟩ => ⟨S9x64, .f32⟩
  | .hbm, ⟨3, _⟩ => ⟨S9x64x131072, .f32⟩
  | .hbm, ⟨4, _⟩ => ⟨S9x1x64, .f32⟩
  | .hbm, ⟨5, _⟩ => ⟨S64x1179648, .f32⟩
  | .hbm, ⟨6, _⟩ => ⟨S1179648x64, .f32⟩
  | .local _ .vmem, ⟨0, _⟩ => ⟨S1x64x16384, .f32⟩
  | .local _ .vmem, ⟨1, _⟩ => ⟨S1x64x16384, .f32⟩
  | .local _ .vmem, ⟨2, _⟩ => ⟨S1x64x64, .f32⟩
  | .local _ .vmem, ⟨3, _⟩ => ⟨S1x64x64, .f32⟩
  | .local _ .vmem, ⟨4, _⟩ => ⟨S1x1x64, .f32⟩
  | .local _ .vmem, ⟨5, _⟩ => ⟨S1x1x64, .f32⟩
  | .local _ .vmem, ⟨6, _⟩ => ⟨S64x16384, .f32⟩
  | .local _ .vmem, ⟨7, _⟩ => ⟨S64x16384, .f32⟩
  | _, _ => ⟨S9x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S9x131072x64_S9x64x131072_0_2_1 : S9x131072x64.Transposes [0, 2, 1] S9x64x131072
  shapeCasts_S9x64_S9x1x64 : S9x64.ShapeCasts S9x1x64
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S64x1 : S64.ShapeCasts S64x1
  broadcasts_S64x1_S64x16384 : S64x1.Broadcasts S64x16384
  inb_S64x16384_S64x16384_0_0 : ∀ a, (![0, 0] : Fin 2 → Nat) a + S64x16384.size a ≤ S64x16384.size a
  h_S64x16384 : 0 < S64x16384.numel
  transposes_S64x1179648_S1179648x64_1_0 : S64x1179648.Transposes [1, 0] S1179648x64
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S9x64x131072.size a
  hwx0_0 : ∀ i : grid0.Coords, EltTy.bits .f32 = 32 ∨ (Rect.block (s := S9x64x131072) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S9x64x64.size a
  hwx0_1 : ∀ i : grid0.Coords, EltTy.bits .f32 = 32 ∨ (Rect.block (s := S9x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S9x1x64.size a
  hwx0_2 : ∀ i : grid0.Coords, EltTy.bits .f32 = 32 ∨ (Rect.block (s := S9x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x1179648.size a
  hwx0_3 : ∀ i : grid0.Coords, EltTy.bits .f32 = 32 ∨ (Rect.block (s := S64x1179648) S64x16384.size (cc0_transform_3 i) (hinb0_3 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S9x131072x64 : Shape := ⟨3, ![9, 131072, 64]⟩
abbrev S9x64x64 : Shape := ⟨3, ![9, 64, 64]⟩
abbrev S9x64 : Shape := ⟨2, ![9, 64]⟩
abbrev S9x1x64 : Shape := ⟨3, ![9, 1, 64]⟩
abbrev S1179648x64 : Shape := ⟨2, ![1179648, 64]⟩

abbrev nBuf : Space → Nat
  | .hbm => 8
  | .vmem => 0
  | .smem => 0
  | _ => 0

abbrev bufTy : (tb : Table) → Fin (tcTables nBuf tb) → BufTy
  | .hbm, ⟨0, _⟩ => ⟨S9x131072x64, .f32⟩
  | .hbm, ⟨1, _⟩ => ⟨S9x64x64, .f32⟩
  | .hbm, ⟨2, _⟩ => ⟨S9x64, .f32⟩
  | .hbm, ⟨3, _⟩ => ⟨S9x131072x64, .f32⟩
  | .hbm, ⟨4, _⟩ => ⟨S9x1x64, .f32⟩
  | .hbm, ⟨5, _⟩ => ⟨S9x131072x64, .f32⟩
  | .hbm, ⟨6, _⟩ => ⟨S9x131072x64, .f32⟩
  | .hbm, ⟨7, _⟩ => ⟨S1179648x64, .f32⟩
  | _, _ => ⟨S9x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S9x64_S9x1x64_0_2 : S9x64.BroadcastsInDim S9x1x64 (![0, 2] : Fin 2 → Fin S9x1x64.rank)
  bcast_S9x1x64_S9x131072x64_0_1_2 : S9x1x64.BroadcastsInDim S9x131072x64 (![0, 1, 2] : Fin 3 → Fin S9x131072x64.rank)
  shapeCasts_S9x131072x64_S1179648x64 : S9x131072x64.ShapeCasts S1179648x64
  dot_S9x131072x64_S9x64x64_S9x131072x64_2_2_1_1_0_0_wf : DotDims.WF S9x131072x64 S9x64x64 S9x131072x64 [2] [2] [1] [1] [0] [0]

variable [Facts₀]

def dot_S9x131072x64_S9x64x64_S9x131072x64_2_2_1_1_0_0 : DotDims S9x131072x64 S9x64x64 S9x131072x64 where
  lhsContracting := [2]
  rhsContracting := [2]
  lhsNonContracting := [1]
  rhsNonContracting := [1]
  lhsBatch := [0]
  rhsBatch := [0]
  wf := dot_S9x131072x64_S9x64x64_S9x131072x64_2_2_1_1_0_0_wf

class Facts : Prop extends Facts₀ where

variable [Facts]
-- ==== Proof.Spec.lean ====
/-
  The stacked affine map, as one function of the three argument arrays.

  Nine groups, each of 131072 rows of 64 channels. Group g sends each of its rows x to x · W_gᵀ + b_g (64 output
  channels), and the nine results are stacked one under the other: row r = g · 131072 + n of the stack is the image of
  row n of group g. Entry (r, o) is therefore  Σ_k x[g, n, k] · W[g, o, k] + b[g, o]  with g = r / 131072, n = r % 131072.

  The same numbers can be laid out channels-first, as a [64, 1179648] matrix over the inputs transposed group by group
  ([9, 64, 131072]) and the bias with a unit middle axis ([9, 1, 64]); each product then has its factors in the other
  order. Transposing that matrix back gives the stack: multiplication of extended reals commutes, and nothing else is
  used (no distributivity, so the inputs need not be finite).
-/
import Idealize.ShloMosaic.PureOps.Ideal
import Idealize.ShloMosaic.Lib.ValueIdx
import Idealize.ShloMosaic.Lib.ValueLayout

noncomputable section

namespace Cert.Affine

open Idealize.ShloMosaic Idealize.ShloMosaic.ValueIdx

/-- The group a row of the stack belongs to. -/
def grp (r : Fin 1179648) : Fin 9 := ⟨r.val / 131072, by have h := r.isLt; omega⟩

/-- Its row inside that group. -/
def row (r : Fin 1179648) : Fin 131072 := ⟨r.val % 131072, Nat.mod_lt _ (by decide)⟩

theorem grp_val (r : Fin 1179648) : (grp r).val = r.val / 131072 := rfl
theorem row_val (r : Fin 1179648) : (row r).val = r.val % 131072 := rfl

/-- The stack of the nine affine images: entry (r, o) is the o-th output channel of row r. -/
def affine (x : (⟨3, ![9, 131072, 64]⟩ : Shape).Idx → EReal) (w : (⟨3, ![9, 64, 64]⟩ : Shape).Idx → EReal)
    (b : (⟨2, ![9, 64]⟩ : Shape).Idx → EReal) : (⟨2, ![1179648, 64]⟩ : Shape).Idx → EReal :=
  fun i => (∑ k : Fin 64, x (ix3 (grp (i 0)) (row (i 0)) k) * w (ix3 (grp (i 0)) (i 1) k)) + b (ix2 (grp (i 0)) (i 1))

/-- The same numbers channels-first: entry (o, r), over the inputs transposed inside each group and the bias with a
    unit middle axis. -/
def affineT (xt : (⟨3, ![9, 64, 131072]⟩ : Shape).Idx → EReal) (w : (⟨3, ![9, 64, 64]⟩ : Shape).Idx → EReal)
    (b3 : (⟨3, ![9, 1, 64]⟩ : Shape).Idx → EReal) : (⟨2, ![64, 1179648]⟩ : Shape).Idx → EReal :=
  fun j => (∑ k : Fin 64, w (ix3 (grp (j 1)) (j 0) k) * xt (ix3 (grp (j 1)) k (row (j 1)))) + b3 (ix3 (grp (j 1)) (0 : Fin 1) (j 0))

theorem affine_apply (x : (⟨3, ![9, 131072, 64]⟩ : Shape).Idx → EReal) (w : (⟨3, ![9, 64, 64]⟩ : Shape).Idx → EReal)
    (b : (⟨2, ![9, 64]⟩ : Shape).Idx → EReal) (r : Fin 1179648) (o : Fin 64) :
    affine x w b (ix2 r o) = (∑ k : Fin 64, x (ix3 (grp r) (row r) k) * w (ix3 (grp r) o k)) + b (ix2 (grp r) o) := rfl

theorem affineT_apply (xt : (⟨3, ![9, 64, 131072]⟩ : Shape).Idx → EReal) (w : (⟨3, ![9, 64, 64]⟩ : Shape).Idx → EReal)
    (b3 : (⟨3, ![9, 1, 64]⟩ : Shape).Idx → EReal) (o : Fin 64) (r : Fin 1179648) :
    affineT xt w b3 (ix2 o r) = (∑ k : Fin 64, w (ix3 (grp r) o k) * xt (ix3 (grp r) k (row r))) + b3 (ix3 (grp r) (0 : Fin 1) o) := rfl

/-- A [9, 64] array given a unit middle axis reads, at (g, 0, o), the operand at (g, o). -/
theorem unitMiddle_apply (b : (⟨2, ![9, 64]⟩ : Shape).Idx → EReal) (h : (⟨2, ![9, 64]⟩ : Shape).ShapeCasts ⟨3, ![9, 1, 64]⟩)
    (g : Fin 9) (u : Fin 1) (o : Fin 64) : shapeCast ⟨3, ![9, 1, 64]⟩ b h (ix3 g u o) = b (ix2 g o) :=
  shapeCast_apply b h _ _ (by
    have hu : u.val = 0 := by omega
    rw [Shape.rowMajor_val_three, Shape.rowMajor_val_two]
    show g.val * 64 + o.val = (g.val * 1 + u.val) * 64 + o.val
    rw [hu, Nat.mul_one, Nat.add_zero])

/-- The channels-first matrix over the transposed inputs, transposed back, is the stack: the factors of each product
    swap places, and multiplication commutes. -/
theorem transpose_affineT (x : (⟨3, ![9, 131072, 64]⟩ : Shape).Idx → EReal) (w : (⟨3, ![9, 64, 64]⟩ : Shape).Idx → EReal)
    (b : (⟨2, ![9, 64]⟩ : Shape).Idx → EReal)
    (hx : (⟨3, ![9, 131072, 64]⟩ : Shape).Transposes [0, 2, 1] ⟨3, ![9, 64, 131072]⟩)
    (hb : (⟨2, ![9, 64]⟩ : Shape).ShapeCasts ⟨3, ![9, 1, 64]⟩)
    (ht : (⟨2, ![64, 1179648]⟩ : Shape).Transposes [1, 0] ⟨2, ![1179648, 64]⟩) :
    transpose ⟨2, ![1179648, 64]⟩ [1, 0]
        (affineT (transpose ⟨3, ![9, 64, 131072]⟩ [0, 2, 1] x hx) w (shapeCast ⟨3, ![9, 1, 64]⟩ b hb)) ht
      = affine x w b := by
  funext i
  obtain ⟨r, o, rfl⟩ : ∃ (r : Fin 1179648) (o : Fin 64), i = ix2 r o := ⟨i 0, i 1, eq_ix2 i⟩
  rw [transpose_ix2_apply, affineT_apply, affine_apply, unitMiddle_apply]
  refine congrArg (· + b (ix2 (grp r) o)) (Finset.sum_congr rfl fun k _ => ?_)
  rw [transpose_ix3_021_apply, mul_comm]

end Cert.Affine

end
-- ==== Proof.RefValue.lean ====
/-
  The reference's result is the stacked affine map.

  The reference contracts the channel axis of the inputs [9, 131072, 64] with the channel axis of the weights
  [9, 64, 64], group by group, adds the bias spread over the rows, and then flattens groups and rows into one axis of
  1179648 rows. Reading the flattened array at (r, o) lands, in the three-axis array, at group r / 131072, row
  r % 131072, channel o; there the contraction is the sum over k of x[g, n, k] · W[g, o, k] and the bias is b[g, o].
-/
import proofs.«168328_g40656160424523_retrytranche2_1793_23_alg».proof.Proof.Gen.ReferenceIdeal.Read
import proofs.«168328_g40656160424523_retrytranche2_1793_23_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Affine

/-- Where the flattened entry (r, o) reads the inputs: group r / 131072, row r % 131072, contracted channel k. -/
theorem inputs_at (r : Fin 1179648) (o : Fin 64) (k : Fin 64) :
    lidx_main_v0 (idx_main_v4 (ix2 r o)) k = ix3 (grp r) (row r) k := by
  funext a; apply Fin.ext
  have ho : o.val < 64 := o.isLt
  match a with
  | ⟨0, _⟩ => show (r.val * 64 + o.val) / 8388608 = r.val / 131072; omega
  | ⟨1, _⟩ => show (r.val * 64 + o.val) / 64 % 131072 = r.val % 131072; omega
  | ⟨2, _⟩ => rfl

/-- Where it reads the weights: the same group, output channel o, contracted channel k. -/
theorem weights_at (r : Fin 1179648) (o : Fin 64) (k : Fin 64) :
    ridx_main_v0 (idx_main_v4 (ix2 r o)) k = ix3 (grp r) o k := by
  funext a; apply Fin.ext
  have ho : o.val < 64 := o.isLt
  match a with
  | ⟨0, _⟩ => show (r.val * 64 + o.val) / 8388608 = r.val / 131072; omega
  | ⟨1, _⟩ => show (r.val * 64 + o.val) % 64 = o.val; omega
  | ⟨2, _⟩ => rfl

/-- Where it reads the bias: the same group, output channel o. -/
theorem bias_at (r : Fin 1179648) (o : Fin 64) :
    idx_main_v1 (idx_main_v2 (idx_main_v4 (ix2 r o))) = ix2 (grp r) o := by
  funext a; apply Fin.ext
  have ho : o.val < 64 := o.isLt
  match a with
  | ⟨0, _⟩ => show (r.val * 64 + o.val) / 8388608 = r.val / 131072; omega
  | ⟨1, _⟩ => show (r.val * 64 + o.val) % 64 = o.val; omega

/-- The reference's last stage, at the exact extended reals, is the stacked affine map of its three arguments. -/
theorem result_eq (x0 : (⟨S9x131072x64, .f32⟩ : BufTy).Contents (Elt Ideal)) (x1 : (⟨S9x64x64, .f32⟩ : BufTy).Contents (Elt Ideal))
    (x2 : (⟨S9x64, .f32⟩ : BufTy).Contents (Elt Ideal)) :
    val_main_v4 (F := Ideal) x0 x1 x2 = affine x0 x1 x2 := by
  funext i
  obtain ⟨r, o, rfl⟩ : ∃ (r : Fin 1179648) (o : Fin 64), i = ix2 r o := ⟨i 0, i 1, eq_ix2 i⟩
  rw [val_main_v4_apply, val_main_v3_apply, val_main_v0_apply, val_main_v2_apply, val_main_v1_apply, affine_apply]
  simp only [inputs_at, weights_at, bias_at]
  rfl

end Cert.ReferenceIdeal.RefValue

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KernelStep.lean ====
/-
  What one grid step computes, entry by entry.

  A step holds a [64, 64] weight matrix W, a [64, 16384] block X of the transposed inputs (channels by rows) and 64
  bias values, each behind a leading unit axis. It forms the matrix product W · X into a zero accumulator and adds the
  bias down the columns: entry (o, l) of what it stores is  Σ_k W[o, k] · X[k, l] + b[o].
-/
import proofs.«168328_g40656160424523_retrytranche2_1793_23_alg».proof.Proof.Gen.KernelIdeal.Skeleton
import proofs.«168328_g40656160424523_retrytranche2_1793_23_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen
open Idealize.ShloMosaic Idealize.ShloMosaic.ValueIdx Idealize.ShloMosaic.ValueLayout

/-! ## The product's operand indices, axis by axis -/

theorem lhs_axis0 (j : S64x16384.Idx) (q : dot_S64x64_S64x16384_S64x16384_1_0_0_1_n_n.contr.Idx) :
    (dot_S64x64_S64x16384_S64x16384_1_0_0_1_n_n.lhsIdx j q 0).val = (j 0).val := by
  unfold DotDims.lhsIdx
  rw [dif_neg (show ¬(0 : Fin S64x64.rank) ∈ dot_S64x64_S64x16384_S64x16384_1_0_0_1_n_n.lhsBatch by decide), dif_pos (show (0 : Fin S64x64.rank) ∈ dot_S64x64_S64x16384_S64x16384_1_0_0_1_n_n.lhsNonContracting by decide)]
  rfl
theorem lhs_axis1 (j : S64x16384.Idx) (q : dot_S64x64_S64x16384_S64x16384_1_0_0_1_n_n.contr.Idx) :
    (dot_S64x64_S64x16384_S64x16384_1_0_0_1_n_n.lhsIdx j q 1).val = (q ⟨0, by decide⟩).val :=
  dot_S64x64_S64x16384_S64x16384_1_0_0_1_n_n.lhsIdx_val_of_single rfl j q
theorem rhs_axis0 (j : S64x16384.Idx) (q : dot_S64x64_S64x16384_S64x16384_1_0_0_1_n_n.contr.Idx) :
    (dot_S64x64_S64x16384_S64x16384_1_0_0_1_n_n.rhsIdx j q 0).val = (q ⟨0, by decide⟩).val :=
  dot_S64x64_S64x16384_S64x16384_1_0_0_1_n_n.rhsIdx_val_of_single rfl j q
theorem rhs_axis1 (j : S64x16384.Idx) (q : dot_S64x64_S64x16384_S64x16384_1_0_0_1_n_n.contr.Idx) :
    (dot_S64x64_S64x16384_S64x16384_1_0_0_1_n_n.rhsIdx j q 1).val = (j 1).val := by
  unfold DotDims.rhsIdx
  rw [dif_neg (show ¬(1 : Fin S64x16384.rank) ∈ dot_S64x64_S64x16384_S64x16384_1_0_0_1_n_n.rhsBatch by decide), dif_pos (show (1 : Fin S64x16384.rank) ∈ dot_S64x64_S64x16384_S64x16384_1_0_0_1_n_n.rhsNonContracting by decide)]
  rfl

/-- The matrix product into a zero accumulator, at (o, l): the sum over the 64 contracted channels. -/
theorem product_apply (W : FVec Ideal S64x64 .f32) (X : FVec Ideal S64x16384 .f32) (o : Fin 64) (l : Fin 16384) :
    matmul dot_S64x64_S64x16384_S64x16384_1_0_0_1_n_n none W X (constant (F := Ideal) S64x16384 .f32 0x00000000#32) (ix2 o l)
      = ∑ k : Fin 64, W (ix2 o k) * X (ix2 k l) := by
  simp only [matmul]
  rw [Ideal.matmul_constant_zero_apply, ← Equiv.sum_comp (ValueIdx.contrEquiv1 dot_S64x64_S64x16384_S64x16384_1_0_0_1_n_n 64 rfl rfl).symm]
  refine Finset.sum_congr rfl fun k _ => ?_
  have hk := ValueIdx.contrEquiv1_symm_val dot_S64x64_S64x16384_S64x16384_1_0_0_1_n_n 64 rfl rfl k
  have el : dot_S64x64_S64x16384_S64x16384_1_0_0_1_n_n.lhsIdx (ix2 o l) ((ValueIdx.contrEquiv1 dot_S64x64_S64x16384_S64x16384_1_0_0_1_n_n 64 rfl rfl).symm k) = ix2 o k := funext fun a => Fin.ext (by
    match a with
    | ⟨0, _⟩ => exact lhs_axis0 _ _
    | ⟨1, _⟩ => exact (lhs_axis1 _ _).trans hk)
  have er : dot_S64x64_S64x16384_S64x16384_1_0_0_1_n_n.rhsIdx (ix2 o l) ((ValueIdx.contrEquiv1 dot_S64x64_S64x16384_S64x16384_1_0_0_1_n_n 64 rfl rfl).symm k) = ix2 k l := funext fun a => Fin.ext (by
    match a with
    | ⟨0, _⟩ => exact (rhs_axis0 _ _).trans hk
    | ⟨1, _⟩ => exact rhs_axis1 _ _)
  rw [el, er]

/-- A [1, 1, 64] array with both unit axes dropped reads, at o, the operand at (0, 0, o). -/
theorem dropTwoUnits_apply {α : Type} (x : (⟨3, ![1, 1, 64]⟩ : Shape).Idx → α) (h : (⟨3, ![1, 1, 64]⟩ : Shape).ShapeCasts ⟨1, ![64]⟩)
    (o : Fin 64) : shapeCast ⟨1, ![64]⟩ x h (ix1 o) = x (ix3 (0 : Fin 1) (0 : Fin 1) o) :=
  shapeCast_apply x h _ _ (by
    rw [Shape.rowMajor_val_three, Shape.rowMajor_val_one]
    show (0 * 1 + 0) * 64 + o.val = o.val
    omega)

/-- THE STEP'S STORED VALUE at (o, l): the product's entry plus the bias of output channel o. -/
theorem stored_apply (x0 : Vec Ideal S1x64x16384 .f32) (x1 : Vec Ideal S1x64x64 .f32) (x2 : Vec Ideal S1x1x64 .f32)
    (o : Fin 64) (l : Fin 16384) :
    k0_pay1 x0 x1 x2 (ix2 o l)
      = (∑ k : Fin 64, x1 (ix3 (0 : Fin 1) o k) * x0 (ix3 (0 : Fin 1) k l)) + x2 (ix3 (0 : Fin 1) (0 : Fin 1) o) := by
  unfold k0_pay1
  rw [addf_apply, product_apply, broadcastTo_a1_ab_apply (by decide), shapeCast_a_a1_apply, dropTwoUnits_apply]
  simp only [shapeCast_1ab_ab_apply]

end Cert.KernelIdeal.Step

end
-- ==== Proof.KernelWhole.lean ====
/-
  The kernel's result array, as one function of its arguments.

  The program transposes the inputs inside each group ([9, 131072, 64] to [9, 64, 131072]), gives the bias a unit
  middle axis, runs the grid of 9 × 8 steps, and transposes the [64, 1179648] matrix the steps wrote into the
  [1179648, 64] result. Step (g, n) reads group g's weights and bias and the n-th block of 16384 rows of group g's
  transposed inputs, and writes block column 8g + n of the matrix. Row r of the stack lies in block column r / 16384,
  which is step (r / 131072, (r % 131072) / 16384): that step reads exactly group r / 131072, and position r % 16384
  of its row block is row r % 131072 of the group. So every step writes a block of the channels-first affine map of
  the arrays the grid finds, the 72 blocks tile the matrix, and the final transpose turns it into the stack.
-/
import proofs.«168328_g40656160424523_retrytranche2_1793_23_alg».proof.Proof.Gen.KernelIdeal.Frame
import proofs.«168328_g40656160424523_retrytranche2_1793_23_alg».proof.Proof.KernelStep
import proofs.«168328_g40656160424523_retrytranche2_1793_23_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Step
open Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## Which blocks a step touches -/

/-- At every step the output block is in block row 0 and block column q < 72; the input block is group q / 8, row
    block q % 8; the weight and bias blocks are group q / 8. -/
theorem blocks_of_step : ∀ t : Fin cfg0.N,
    win0_3.index t (0 : Fin 2) = 0 ∧ win0_3.index t (1 : Fin 2) < 72
    ∧ win0_0.index t (0 : Fin 3) = win0_3.index t (1 : Fin 2) / 8 ∧ win0_0.index t (1 : Fin 3) = 0
    ∧ win0_0.index t (2 : Fin 3) = win0_3.index t (1 : Fin 2) % 8
    ∧ win0_1.index t (0 : Fin 3) = win0_3.index t (1 : Fin 2) / 8 ∧ win0_1.index t (1 : Fin 3) = 0 ∧ win0_1.index t (2 : Fin 3) = 0
    ∧ win0_2.index t (0 : Fin 3) = win0_3.index t (1 : Fin 2) / 8 ∧ win0_2.index t (1 : Fin 3) = 0 ∧ win0_2.index t (2 : Fin 3) = 0 :=
  (by decide +kernel : ∀ t : Fin grid0.N, _)

/-- Every block column is some step's. -/
theorem step_of_column : ∀ q : Fin 72, ∃ t : Fin cfg0.N, win0_3.index t = ![0, q.val] :=
  (by decide +kernel : ∀ q : Fin 72, ∃ t : Fin grid0.N, win0_3.index t = ![0, q.val])

/-! ## The input blocks, read off the arrays the grid finds -/

/-- The transposed inputs' block at a step, entry y, is the array's entry k whenever k is y moved by the block's offsets. -/
theorem inputs_block (c : Dev nD) (t : Fin cfg0.N) (y : S1x64x16384.Idx) (k : S9x64x131072.Idx)
    (h0 : win0_0.index t (0 : Fin 3) * 1 + 1 * (y 0).val = (k 0).val)
    (h1 : win0_0.index t (1 : Fin 3) * 64 + 1 * (y 1).val = (k 1).val)
    (h2 : win0_0.index t (2 : Fin 3) * 16384 + 1 * (y 2).val = (k 2).val) :
    (iblk m c 0 t : Vec Ideal S1x64x16384 .f32) y = (V m c main_v0 : S9x64x131072.Idx → Elt Ideal .f32) k := by
  unfold iblk
  rw [View.read_apply]
  show V m c main_v0 _ = V m c main_v0 _
  congr 1
  funext a; apply Fin.ext
  match a with
  | ⟨0, _⟩ => exact h0
  | ⟨1, _⟩ => exact h1
  | ⟨2, _⟩ => exact h2

/-- The same for the weights' block. -/
theorem weights_block (c : Dev nD) (t : Fin cfg0.N) (y : S1x64x64.Idx) (k : S9x64x64.Idx)
    (h0 : win0_1.index t (0 : Fin 3) * 1 + 1 * (y 0).val = (k 0).val)
    (h1 : win0_1.index t (1 : Fin 3) * 64 + 1 * (y 1).val = (k 1).val)
    (h2 : win0_1.index t (2 : Fin 3) * 64 + 1 * (y 2).val = (k 2).val) :
    (iblk m c 1 t : Vec Ideal S1x64x64 .f32) y = (V m c main_arg1 : S9x64x64.Idx → Elt Ideal .f32) k := by
  unfold iblk
  rw [View.read_apply]
  show V m c main_arg1 _ = V m c main_arg1 _
  congr 1
  funext a; apply Fin.ext
  match a with
  | ⟨0, _⟩ => exact h0
  | ⟨1, _⟩ => exact h1
  | ⟨2, _⟩ => exact h2

/-- The same for the bias' block. -/
theorem bias_block (c : Dev nD) (t : Fin cfg0.N) (y : S1x1x64.Idx) (k : S9x1x64.Idx)
    (h0 : win0_2.index t (0 : Fin 3) * 1 + 1 * (y 0).val = (k 0).val)
    (h1 : win0_2.index t (1 : Fin 3) * 1 + 1 * (y 1).val = (k 1).val)
    (h2 : win0_2.index t (2 : Fin 3) * 64 + 1 * (y 2).val = (k 2).val) :
    (iblk m c 2 t : Vec Ideal S1x1x64 .f32) y = (V m c main_v1 : S9x1x64.Idx → Elt Ideal .f32) k := by
  unfold iblk
  rw [View.read_apply]
  show V m c main_v1 _ = V m c main_v1 _
  congr 1
  funext a; apply Fin.ext
  match a with
  | ⟨0, _⟩ => exact h0
  | ⟨1, _⟩ => exact h1
  | ⟨2, _⟩ => exact h2

/-! ## What a step stores is a block of the channels-first affine map -/

/-- If a step's three blocks are the group's weights and bias and a run of the group's transposed rows that puts row
    r's position at column l, then what it stores at (o, l) is the channels-first map at (o, r). -/
theorem stored_is_affineT (x0 : Vec Ideal S1x64x16384 .f32) (x1 : Vec Ideal S1x64x64 .f32) (x2 : Vec Ideal S1x1x64 .f32)
    (XT : S9x64x131072.Idx → EReal) (W : S9x64x64.Idx → EReal) (B3 : S9x1x64.Idx → EReal)
    (y : S64x16384.Idx) (r : Fin 1179648)
    (h0 : ∀ k : Fin 64, x0 (ix3 (0 : Fin 1) k (y 1)) = XT (ix3 (grp r) k (row r)))
    (h1 : ∀ k : Fin 64, x1 (ix3 (0 : Fin 1) (y 0) k) = W (ix3 (grp r) (y 0) k))
    (h2 : x2 (ix3 (0 : Fin 1) (0 : Fin 1) (y 0)) = B3 (ix3 (grp r) (0 : Fin 1) (y 0))) :
    k0_pay1 x0 x1 x2 y = affineT XT W B3 (ix2 (y 0) r) := by
  obtain ⟨o, l, rfl⟩ : ∃ (o : Fin 64) (l : Fin 16384), y = ix2 o l := ⟨y 0, y 1, eq_ix2 y⟩
  rw [stored_apply, affineT_apply]
  refine (congrArg (· + x2 (ix3 (0 : Fin 1) (0 : Fin 1) o)) (Finset.sum_congr rfl fun k _ => ?_)).trans (congrArg _ h2)
  rw [h0 k, h1 k]

/-- WHAT STEP t WRITES BACK is block t of the channels-first affine map of the arrays the grid finds. -/
theorem flushed_eq (c : Dev nD) (t : Fin cfg0.N) :
    (dats m 0 c).flushed 3 t = ((cfg0.win 3).blk t).view.read (Elt Ideal)
      (affineT (V m c main_v0) (V m c main_arg1) (V m c main_v1)) := by
  show (cfg0.win 3).cut (grid0.coords t) ((dats m 0 c).after 3 t) = _
  rw [after0_3]
  unfold out0_3
  rw [View.canon_unit_zero zeros2]
  simp only [View.ld_unit_zero (S := S1x64x16384) zeros3, View.ld_unit_zero (S := S1x64x64) zeros3, View.ld_unit_zero (S := S1x1x64) zeros3]
  obtain ⟨e30, e31, e00, e01, e02, e10, e11, e12, e20, e21, e22⟩ := blocks_of_step t
  funext y
  have hy0 : (y 0).val < 64 := (y 0).isLt
  have hy1 : (y 1).val < 16384 := (y 1).isLt
  show k0_pay1 (iblk m c 0 t) (iblk m c 1 t) (iblk m c 2 t) y
      = affineT (V m c main_v0) (V m c main_arg1) (V m c main_v1) (((cfg0.win 3).blk t).view.emb y)
  have hemb : ((cfg0.win 3).blk t).view.emb y
      = ix2 (y 0) (⟨win0_3.index t (1 : Fin 2) * 16384 + (y 1).val, by omega⟩ : Fin 1179648) := by
    funext a; apply Fin.ext
    match a with
    | ⟨0, _⟩ => show win0_3.index t (0 : Fin 2) * 64 + 1 * (y 0).val = (y 0).val; omega
    | ⟨1, _⟩ => show win0_3.index t (1 : Fin 2) * 16384 + 1 * (y 1).val = win0_3.index t (1 : Fin 2) * 16384 + (y 1).val; omega
  rw [hemb]
  refine stored_is_affineT (iblk m c 0 t) (iblk m c 1 t) (iblk m c 2 t) (V m c main_v0) (V m c main_arg1) (V m c main_v1) y _
    (fun k => ?_) (fun k => ?_) ?_
  · refine inputs_block m c t _ _ ?_ ?_ ?_
    · show win0_0.index t (0 : Fin 3) * 1 + 1 * 0 = (win0_3.index t (1 : Fin 2) * 16384 + (y 1).val) / 131072; omega
    · show win0_0.index t (1 : Fin 3) * 64 + 1 * k.val = k.val; omega
    · show win0_0.index t (2 : Fin 3) * 16384 + 1 * (y 1).val = (win0_3.index t (1 : Fin 2) * 16384 + (y 1).val) % 131072; omega
  · refine weights_block m c t _ _ ?_ ?_ ?_
    · show win0_1.index t (0 : Fin 3) * 1 + 1 * 0 = (win0_3.index t (1 : Fin 2) * 16384 + (y 1).val) / 131072; omega
    · show win0_1.index t (1 : Fin 3) * 64 + 1 * (y 0).val = (y 0).val; omega
    · show win0_1.index t (2 : Fin 3) * 64 + 1 * k.val = k.val; omega
  · refine bias_block m c t _ _ ?_ ?_ ?_
    · show win0_2.index t (0 : Fin 3) * 1 + 1 * 0 = (win0_3.index t (1 : Fin 2) * 16384 + (y 1).val) / 131072; omega
    · show win0_2.index t (1 : Fin 3) * 1 + 1 * 0 = 0; omega
    · show win0_2.index t (2 : Fin 3) * 64 + 1 * (y 0).val = (y 0).val; omega

/-! ## The blocks tile the matrix -/

/-- An entry of the matrix is in step t's block iff each coordinate is in the block's range. -/
theorem mem_block (t : Fin cfg0.N) (i : S64x1179648.Idx) :
    i ∈ ((cfg0.win 3).blk t).view.set ↔ ∀ a : Fin 2, win0_3.index t a * S64x16384.size a ≤ (i a).val ∧ (i a).val < win0_3.index t a * S64x16384.size a + S64x16384.size a := by
  show i ∈ ((View.whole main_v2).slice (win0_3.rect t)).set ↔ _
  rw [View.set_slice_whole, Rect.mem_set_unit]
  exact Iff.rfl

/-- THE MATRIX AFTER THE GRID is the channels-first affine map of the arrays the grid found: entry (o, r) lies in
    block column r / 16384. -/
theorem matrix_eq (c : Dev nD) :
    (dats m 0 c).arrAt 3 cfg0.N = affineT (V m c main_v0) (V m c main_arg1) (V m c main_v1) :=
  (dats m 0 c).arrAt_eq_of_cover 3 _ (fun t _ => flushed_eq m c t) (fun i => by
    have h0 : (i 0).val < 64 := (i 0).isLt
    have h1 : (i 1).val < 1179648 := (i 1).isLt
    obtain ⟨t, ht⟩ := step_of_column ⟨(i 1).val / 16384, by omega⟩
    have q0 : win0_3.index t (0 : Fin 2) = 0 := congrFun ht 0
    have q1 : win0_3.index t (1 : Fin 2) = (i 1).val / 16384 := congrFun ht 1
    refine ⟨t, flush0_3 t, ?_⟩
    rw [mem_block]
    intro a
    match a with
    | ⟨0, _⟩ => show win0_3.index t (0 : Fin 2) * 64 ≤ (i 0).val ∧ (i 0).val < win0_3.index t (0 : Fin 2) * 64 + 64; omega
    | ⟨1, _⟩ => show win0_3.index t (1 : Fin 2) * 16384 ≤ (i 1).val ∧ (i 1).val < win0_3.index t (1 : Fin 2) * 16384 + 16384; omega)

/-! ## The lines around the grid -/

/-- The grid finds the inputs transposed inside each group. -/
theorem found_inputs (c : Dev nD) :
    V m c main_v0 = transpose S9x64x131072 [0, 2, 1] (m ((c : Thread nD τ).loc main_arg0)) transposes_S9x131072x64_S9x64x131072_0_2_1 := by
  show StableHlo.after hostOps0 (fun b => m (c, b)) (Proc.devRef .tc main_v0) = _
  after_results

/-- It finds the bias with a unit middle axis. -/
theorem found_bias (c : Dev nD) :
    V m c main_v1 = shapeCast S9x1x64 (m ((c : Thread nD τ).loc main_arg2)) shapeCasts_S9x64_S9x1x64 := by
  show StableHlo.after hostOps0 (fun b => m (c, b)) (Proc.devRef .tc main_v1) = _
  after_results
  rfl

/-- The line after the grid transposes the matrix the grid left. -/
theorem result_is_transpose (c : Dev nD) :
    Pipeline.afterTail₀ cfgs (dats m) 0 (V0 m) [hostOps1] c main_v3
      = transpose S1179648x64 [1, 0] ((dats m 0 c).arrAt 3 cfg0.N) transposes_S64x1179648_S1179648x64_1_0 := by
  unfold Pipeline.afterTail₀
  show StableHlo.after hostOps1 _ (Proc.devRef .tc main_v3) = _
  after_results
  rw [Pipeline.withArrays_arr spec0 launch0.win.arr_inj c _ _ 3]

/-- THE RESULT is the stacked affine map of the three arguments. -/
theorem result_eq (c : Dev nD) :
    Pipeline.afterTail₀ cfgs (dats m) 0 (V0 m) [hostOps1] c main_v3
      = affine (m ((c : Thread nD τ).loc main_arg0)) (m ((c : Thread nD τ).loc main_arg1)) (m ((c : Thread nD τ).loc main_arg2)) := by
  rw [result_is_transpose, matrix_eq, found_inputs, found_bias, V_main_arg1]
  exact transpose_affineT _ _ _ _ _ _

/-- Every weakly fair execution of the program terminates with the result array at the stacked affine map of the
    arguments and the arguments unchanged. -/
theorem run : θ_run defs (onTc (τ := τ) (main (F := Ideal))) ⟨m, fun _ => 0, ρ⟩ fun r => ∀ c : Dev nD,
      r.2.mem ((c.tc : Thread nD τ).loc main_v3)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Whole

end
-- ==== Proof.lean ====
/-
  Nine groups of 131072 rows of 64 channels, each group mapped by its own affine map y = x · Wᵀ + b, the nine results
  stacked into one [1179648, 64] array.

  The reference contracts the channel axis group by group, adds the bias over the rows and flattens groups and rows.
  The kernel works in the transposed picture: it transposes the inputs inside each group, runs a grid of 9 × 8 steps
  each of which multiplies a group's [64, 64] weights into a [64, 16384] block of that group's transposed rows and adds
  the bias down the columns, writing block column 8g + n of a [64, 1179648] matrix, and transposes that matrix at the
  end. At the exact extended reals both produce, at (r, o),  Σ_k x[g, n, k] · W[g, o, k] + b[g, o]  with g = r / 131072
  and n = r % 131072; the two differ only in the order of the factors of each product, and multiplication commutes.
  Nothing more is needed of the numbers, so the finiteness of the inputs is never used.

  The three programs' frames: the two kernel programs run through their grids without faulting and leave the
  arguments as they were; the reference is straight-line host code. The idealization rewrote nothing, so there is
  nothing to preserve.
-/
import proofs.«168328_g40656160424523_retrytranche2_1793_23_alg».proof.Defs
import proofs.«168328_g40656160424523_retrytranche2_1793_23_alg».proof.Proof.Gen.Kernel
import proofs.«168328_g40656160424523_retrytranche2_1793_23_alg».proof.Proof.Gen.Kernel.Skeleton
import proofs.«168328_g40656160424523_retrytranche2_1793_23_alg».proof.Proof.Gen.Kernel.Launch
import proofs.«168328_g40656160424523_retrytranche2_1793_23_alg».proof.Proof.Gen.Kernel.Points
import proofs.«168328_g40656160424523_retrytranche2_1793_23_alg».proof.Proof.Gen.Kernel.Frame
import proofs.«168328_g40656160424523_retrytranche2_1793_23_alg».proof.Proof.Gen.KernelIdeal
import proofs.«168328_g40656160424523_retrytranche2_1793_23_alg».proof.Proof.Gen.KernelIdeal.Skeleton
import proofs.«168328_g40656160424523_retrytranche2_1793_23_alg».proof.Proof.Gen.KernelIdeal.Launch
import proofs.«168328_g40656160424523_retrytranche2_1793_23_alg».proof.Proof.Gen.KernelIdeal.Points
import proofs.«168328_g40656160424523_retrytranche2_1793_23_alg».proof.Proof.Gen.KernelIdeal.Frame
import proofs.«168328_g40656160424523_retrytranche2_1793_23_alg».proof.Proof.Gen.ReferenceIdeal
import proofs.«168328_g40656160424523_retrytranche2_1793_23_alg».proof.Proof.Gen.Pre_finite_inputs
import proofs.«168328_g40656160424523_retrytranche2_1793_23_alg».proof.Proof.Gen.ReferenceIdeal.Run
import proofs.«168328_g40656160424523_retrytranche2_1793_23_alg».proof.Proof.Gen.ReferenceIdeal.Read
import proofs.«168328_g40656160424523_retrytranche2_1793_23_alg».proof.Proof.RefValue
import proofs.«168328_g40656160424523_retrytranche2_1793_23_alg».proof.Proof.KernelWhole
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does its reading at the exact extended reals. -/
theorem frame_kernel_ideal : Cert.frame_KernelIdeal := fun m ρ _ => Cert.KernelIdeal.Gen.frame m ρ

/-- The reference is five host operations in a row: it ends, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- Both programs end with the stacked affine map of the arguments in their result array: the kernel by the grid's
    blocks tiling the transposed matrix, the reference by reading its flattened contraction entry by entry. -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
